-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S32x512x10 : Shape := ⟨3, ![32, 512, 10]⟩
abbrev S_ : Shape := ⟨0, ![]⟩

class Facts : Prop where
  bcast_S_S32x512x10 : S_.BroadcastsInDim S32x512x10 (![] : Fin 0 → Fin S32x512x10.rank)
  reducesTo_S32x512x10_S_d0_1_2 : S32x512x10.ReducesTo [0, 1, 2] S_
  h_S_ : 0 < S_.numel

variable [Facts]

def fn {F : FTy → Type} [FloatOps F] (main_arg0 : IVec S32x512x10 32) : IVec S_ 1 :=
  let main_c : IVec S_ 32 := constantI S_ 32 0#32
  let main_v0 : IVec S32x512x10 32 := broadcastInDim S32x512x10 ![] bcast_S_S32x512x10 main_c
  let main_v1 : IVec S32x512x10 1 := cmpi .sge main_arg0 main_v0
  let main_c_0 : IVec S_ 1 := constantI S_ 1 1#1
  let main_v2 : IVec S_ 1 := (fun x v => Host.reduce IntOp.andi x v reducesTo_S32x512x10_S_d0_1_2 h_S_) main_v1 main_c_0
  main_v2
-- ==== Kernel.lean ====
abbrev S32x512x10 : Shape := ⟨3, ![32, 512, 10]⟩
abbrev S16384x10 : Shape := ⟨2, ![16384, 10]⟩
abbrev S16384x5000 : Shape := ⟨2, ![16384, 5000]⟩
abbrev S512x10 : Shape := ⟨2, ![512, 10]⟩
abbrev S512x5000 : Shape := ⟨2, ![512, 5000]⟩
abbrev S512x1 : Shape := ⟨2, ![512, 1]⟩
abbrev S32x512x5000 : Shape := ⟨3, ![32, 512, 5000]⟩

abbrev nBuf : Space → Nat
  | .hbm => 4
  | .vmem => 4
  | .smem => 0
  | _ => 0

abbrev bufTy : (tb : Table) → Fin (tcTables nBuf tb) → BufTy
  | .hbm, ⟨0, _⟩ => ⟨S32x512x10, .i32⟩
  | .hbm, ⟨1, _⟩ => ⟨S16384x10, .i32⟩
  | .hbm, ⟨2, _⟩ => ⟨S16384x5000, .f32⟩
  | .hbm, ⟨3, _⟩ => ⟨S32x512x5000, .f32⟩
  | .local _ .vmem, ⟨0, _⟩ => ⟨S512x10, .i32⟩
  | .local _ .vmem, ⟨1, _⟩ => ⟨S512x10, .i32⟩
  | .local _ .vmem, ⟨2, _⟩ => ⟨S512x5000, .f32⟩
  | .local _ .vmem, ⟨3, _⟩ => ⟨S512x5000, .f32⟩
  | _, _ => ⟨S32x512x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x10_S16384x10 : S32x512x10.ShapeCasts S16384x10
  iota_S512x5000_d1_w32 : S512x5000.Iotas .tc 32 [1]
  inb_S512x10_S512x1_0_0 : ∀ a, (![0, 0] : Fin 2 → Nat) a + S512x1.size a ≤ S512x10.size a
  h_S512x1 : 0 < S512x1.numel
  shapeCasts_S512x1_S512x1 : S512x1.ShapeCasts S512x1
  broadcasts_S512x1_S512x5000 : S512x1.Broadcasts S512x5000
  inb_S512x10_S512x1_0_1 : ∀ a, (![0, 1] : Fin 2 → Nat) a + S512x1.size a ≤ S512x10.size a
  inb_S512x10_S512x1_0_2 : ∀ a, (![0, 2] : Fin 2 → Nat) a + S512x1.size a ≤ S512x10.size a
  inb_S512x10_S512x1_0_3 : ∀ a, (![0, 3] : Fin 2 → Nat) a + S512x1.size a ≤ S512x10.size a
  inb_S512x10_S512x1_0_4 : ∀ a, (![0, 4] : Fin 2 → Nat) a + S512x1.size a ≤ S512x10.size a
  inb_S512x10_S512x1_0_5 : ∀ a, (![0, 5] : Fin 2 → Nat) a + S512x1.size a ≤ S512x10.size a
  inb_S512x10_S512x1_0_6 : ∀ a, (![0, 6] : Fin 2 → Nat) a + S512x1.size a ≤ S512x10.size a
  inb_S512x10_S512x1_0_7 : ∀ a, (![0, 7] : Fin 2 → Nat) a + S512x1.size a ≤ S512x10.size a
  inb_S512x10_S512x1_0_8 : ∀ a, (![0, 8] : Fin 2 → Nat) a + S512x1.size a ≤ S512x10.size a
  inb_S512x10_S512x1_0_9 : ∀ a, (![0, 9] : Fin 2 → Nat) a + S512x1.size a ≤ S512x10.size a
  natLt_1_32 : 1 < 32
  inb_S512x5000_S512x5000_0_0 : ∀ a, (![0, 0] : Fin 2 → Nat) a + S512x5000.size a ≤ S512x5000.size a
  h_S512x5000 : 0 < S512x5000.numel
  shapeCasts_S16384x5000_S32x512x5000 : S16384x5000.ShapeCasts S32x512x5000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10.size a ≤ S16384x10.size a
  hwx0_0 : ∀ i : grid0.Coords, EltTy.bits .i32 = 32 ∨ (Rect.block (s := S16384x10) S512x10.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x5000.size a ≤ S16384x5000.size a
  hwx0_1 : ∀ i : grid0.Coords, EltTy.bits .f32 = 32 ∨ (Rect.block (s := S16384x5000) S512x5000.size (cc0_transform_1 i) (hinb0_1 i)).WholeWords (EltTy.packing .f32)

variable [Facts₀]

abbrev win0_0 : Pipeline.Window sig grid0 :=
  Pipeline.Window.ofSpec (Memref.whole main_v0) S512x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x5000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x10 : Shape := ⟨3, ![32, 512, 10]⟩
abbrev S32 : Shape := ⟨1, ![32]⟩
abbrev S32x1x1 : Shape := ⟨3, ![32, 1, 1]⟩
abbrev S512 : Shape := ⟨1, ![512]⟩
abbrev S1x512x1 : Shape := ⟨3, ![1, 512, 1]⟩
abbrev S_ : Shape := ⟨0, ![]⟩
abbrev S32x512x5000 : Shape := ⟨3, ![32, 512, 5000]⟩
abbrev S32x512x10x1 : Shape := ⟨4, ![32, 512, 10, 1]⟩
abbrev S32x512x10x3 : Shape := ⟨4, ![32, 512, 10, 3]⟩

abbrev nBuf : Space → Nat
  | .hbm => 37
  | .vmem => 0
  | .smem => 0
  | _ => 0

abbrev bufTy : (tb : Table) → Fin (tcTables nBuf tb) → BufTy
  | .hbm, ⟨0, _⟩ => ⟨S32x512x10, .i32⟩
  | .hbm, ⟨1, _⟩ => ⟨S32, .i32⟩
  | .hbm, ⟨2, _⟩ => ⟨S32x1x1, .i32⟩
  | .hbm, ⟨3, _⟩ => ⟨S512, .i32⟩
  | .hbm, ⟨4, _⟩ => ⟨S1x512x1, .i32⟩
  | .hbm, ⟨5, _⟩ => ⟨S_, .f32⟩
  | .hbm, ⟨6, _⟩ => ⟨S32x512x5000, .f32⟩
  | .hbm, ⟨7, _⟩ => ⟨S_, .i32⟩
  | .hbm, ⟨8, _⟩ => ⟨S32x1x1, .i32⟩
  | .hbm, ⟨9, _⟩ => ⟨S32x1x1, .i1⟩
  | .hbm, ⟨10, _⟩ => ⟨S_, .i32⟩
  | .hbm, ⟨11, _⟩ => ⟨S32x1x1, .i32⟩
  | .hbm, ⟨12, _⟩ => ⟨S32x1x1, .i32⟩
  | .hbm, ⟨13, _⟩ => ⟨S32x1x1, .i32⟩
  | .hbm, ⟨14, _⟩ => ⟨S_, .i32⟩
  | .hbm, ⟨15, _⟩ => ⟨S1x512x1, .i32⟩
  | .hbm, ⟨16, _⟩ => ⟨S1x512x1, .i1⟩
  | .hbm, ⟨17, _⟩ => ⟨S_, .i32⟩
  | .hbm, ⟨18, _⟩ => ⟨S1x512x1, .i32⟩
  | .hbm, ⟨19, _⟩ => ⟨S1x512x1, .i32⟩
  | .hbm, ⟨20, _⟩ => ⟨S1x512x1, .i32⟩
  | .hbm, ⟨21, _⟩ => ⟨S_, .i32⟩
  | .hbm, ⟨22, _⟩ => ⟨S32x512x10, .i32⟩
  | .hbm, ⟨23, _⟩ => ⟨S32x512x10, .i1⟩
  | .hbm, ⟨24, _⟩ => ⟨S_, .i32⟩
  | .hbm, ⟨25, _⟩ => ⟨S32x512x10, .i32⟩
  | .hbm, ⟨26, _⟩ => ⟨S32x512x10, .i32⟩
  | .hbm, ⟨27, _⟩ => ⟨S32x512x10, .i32⟩
  | .hbm, ⟨28, _⟩ => ⟨S32x512x10, .i32⟩
  | .hbm, ⟨29, _⟩ => ⟨S32x512x10, .i32⟩
  | .hbm, ⟨30, _⟩ => ⟨S32x512x10x1, .i32⟩
  | .hbm, ⟨31, _⟩ => ⟨S32x512x10x1, .i32⟩
  | .hbm, ⟨32, _⟩ => ⟨S32x512x10x1, .i32⟩
  | .hbm, ⟨33, _⟩ => ⟨S32x512x10x3, .i32⟩
  | .hbm, ⟨34, _⟩ => ⟨S_, .f32⟩
  | .hbm, ⟨35, _⟩ => ⟨S32x512x10, .f32⟩
  | .hbm, ⟨36, _⟩ => ⟨S32x512x5000, .f32⟩
  | _, _ => ⟨S32x512x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S32_S32x1x1_0 : S32.BroadcastsInDim S32x1x1 (![0] : Fin 1 → Fin S32x1x1.rank)
  bcast_S512_S1x512x1_1 : S512.BroadcastsInDim S1x512x1 (![1] : Fin 1 → Fin S1x512x1.rank)
  bcast_S_S32x512x5000 : S_.BroadcastsInDim S32x512x5000 (![] : Fin 0 → Fin S32x512x5000.rank)
  bcast_S_S32x1x1 : S_.BroadcastsInDim S32x1x1 (![] : Fin 0 → Fin S32x1x1.rank)
  bcast_S_S1x512x1 : S_.BroadcastsInDim S1x512x1 (![] : Fin 0 → Fin S1x512x1.rank)
  bcast_S_S32x512x10 : S_.BroadcastsInDim S32x512x10 (![] : Fin 0 → Fin S32x512x10.rank)
  bcast_S32x1x1_S32x512x10_0_1_2 : S32x1x1.BroadcastsInDim S32x512x10 (![0, 1, 2] : Fin 3 → Fin S32x512x10.rank)
  bcast_S1x512x1_S32x512x10_0_1_2 : S1x512x1.BroadcastsInDim S32x512x10 (![0, 1, 2] : Fin 3 → Fin S32x512x10.rank)
  bcast_S32x512x10_S32x512x10x1_0_1_2 : S32x512x10.BroadcastsInDim S32x512x10x1 (![0, 1, 2] : Fin 3 → Fin S32x512x10x1.rank)
  concatenates_S32x512x10x1_S32x512x10x1_S32x512x10x1_S32x512x10x3_d3 : Shape.Concatenates [S32x512x10x1, S32x512x10x1, S32x512x10x1] S32x512x10x3 3
  scatter_S32x512x5000_S32x512x10x3_S32x512x10_n_012_012_3_wf : ScatterDims.WF S32x512x5000 S32x512x10x3 S32x512x10 [] [0, 1, 2] [0, 1, 2] 3

variable [Facts₀]

def scatter_S32x512x5000_S32x512x10x3_S32x512x10_n_012_012_3 : ScatterDims S32x512x5000 S32x512x10x3 S32x512x10 where
  updateWindowDims := []
  insertedWindowDims := [0, 1, 2]
  scatterDimsToOperandDims := [0, 1, 2]
  indexVectorDim := 3
  wf := scatter_S32x512x5000_S32x512x10x3_S32x512x10_n_012_012_3_wf

class Facts : Prop extends Facts₀ where

variable [Facts]
-- ==== Proof.PreNonneg.lean ====
/-
  The precondition read: `jnp.all(x >= 0)` evaluating to true says every token id is non-negative as a signed
  32-bit word. The predicate is a reduction by `and` of the elementwise signed compare against a broadcast zero;
  a conjunction over all elements that is 1 had a 1 at every element.
-/
import proofs.«411672_j26233660244449_1_alg».proof.Pre_any_inputs
import Idealize.ShloMosaic.Lib.ReduceAll
import Idealize.ShloMosaic.Lib.Affine
import Idealize.ShloMosaic.Lib.ValueIdx

noncomputable section

namespace Cert.MultiHot

open Idealize.ShloMosaic

theorem nonneg_of_pre [Cert.Pre_any_inputs.Facts] {F : FTy → Type} [FloatOps F]
    (x : IVec Cert.Pre_any_inputs.S32x512x10 32)
    (h : Cert.Pre_any_inputs.fn (F := F) x = fun _ => 1#1) (j : Cert.Pre_any_inputs.S32x512x10.Idx) :
    0 ≤ (x j).toInt := by
  have e := congrFun h ValueIdx.ix0
  unfold Cert.Pre_any_inputs.fn at e
  dsimp only at e
  haveI : Subsingleton Cert.Pre_any_inputs.S_.Idx := ⟨fun a b => funext fun d => d.elim0⟩
  have hj : IntOp.cmpi .sge (x j) 0#32 = 1#1 := Host.reduce_andi_all _ _ _ _ _ e j
  have := IntOp.cmpi_sge.1 hj
  simpa using this

end Cert.MultiHot

end
-- ==== Proof.LibScatterSet.lean ====
/-
  A `stablehlo.scatter` whose body returns the update (what `x.at[idx].set(v)` lowers to), with every update
  element the same value `c`, read at one index of the operand.

  The scatter is a left fold over the update indices: each update whose index vector lands inside the operand
  overwrites the element it lands on, an update landing outside is dropped. When all updates carry the same
  value the order of the fold does not matter: an element some update lands on ends at `c`, every other element
  keeps the operand's value. Generic in the shapes, the dimension numbers and the element type.
-/
import Idealize.ShloMosaic.PureOps.ShapeOps

namespace Idealize.ShloMosaic.ScatterSet

variable {α : Type} {s si u : Shape} {w : Nat}

/-- Where an update lands: on `i` exactly when, on every operand axis, its start plus its window coordinate is
    `i`'s coordinate (an update whose window leaves the operand on some axis lands nowhere). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hin =>
      have e := Option.some.inj h
      have ea : ((i a).val : Int) = ((d.start j idx a + (d.window j a : Int)).toNat : Int) := by
        rw [← e]
      rw [ea, Int.toNat_of_nonneg (hin a).1]
    · exact absurd h (by simp)
  · intro h
    have hin : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hin]
    congr 1
    funext a
    apply Fin.ext
    show (d.start j idx a + (d.window j a : Int)).toNat = (i a).val
    rw [h a]
    exact Int.toNat_natCast _

/-- The fold over ANY list of update positions, read at `i`: `c` if one of the listed updates lands on `i`, the
    starting value otherwise. By induction on the list: a later update that lands on `i` wins, and it writes `c`;
    if none of the later ones does, the first step decides. -/
theorem foldl_set_apply (d : ScatterDims s si u) (f : α → α → α) (hf : ∀ a b, f a b = b) (idx : IVec si w)
    (upd : u.Idx → α) (c : α) (hupd : ∀ j, upd j = c) (i : s.Idx) (l : List (Fin u.numel)) (x : s.Idx → α) :
    ((∃ n ∈ l, d.resultIdx? (u.rowMajor.symm n) idx = some i) →
      (l.foldl (fun r n =>
        match d.resultIdx? (u.rowMajor.symm n) idx with
        | some i₀ => fun i' => if i' = i₀ then f (r i₀) (upd (u.rowMajor.symm n)) else r i'
        | none => r) x) i = c)
    ∧ ((∀ n ∈ l, d.resultIdx? (u.rowMajor.symm n) idx ≠ some i) →
      (l.foldl (fun r n =>
        match d.resultIdx? (u.rowMajor.symm n) idx with
        | some i₀ => fun i' => if i' = i₀ then f (r i₀) (upd (u.rowMajor.symm n)) else r i'
        | none => r) x) i = x i) := by
  induction l generalizing x with
  | nil => exact ⟨fun ⟨_, h, _⟩ => (nomatch h), fun _ => rfl⟩
  | cons n l ih =>
    rw [List.foldl_cons]
    constructor
    · rintro ⟨n', hn', e⟩
      by_cases hl : ∃ n'' ∈ l, d.resultIdx? (u.rowMajor.symm n'') idx = some i
      · exact (ih _).1 hl
      · have hmiss : ∀ n'' ∈ l, d.resultIdx? (u.rowMajor.symm n'') idx ≠ some i := fun n'' h e' => hl ⟨n'', h, e'⟩
        rw [(ih _).2 hmiss]
        rcases List.mem_cons.1 hn' with rfl | h
        · rw [e]
          show (if i = i then f (x i) (upd _) else x i) = c
          rw [if_pos rfl, hf, hupd]
        · exact absurd e (hmiss n' h)
    · intro hmiss
      rw [(ih _).2 (fun n'' h => hmiss n'' (List.mem_cons_of_mem _ h))]
      have h0 := hmiss n (List.mem_cons_self ..)
      cases hr : d.resultIdx? (u.rowMajor.symm n) idx with
      | none => rfl
      | some i₀ =>
        show (if i = i₀ then f (x i₀) (upd _) else x i) = x i
        rw [if_neg]
        rintro rfl
        exact h0 hr

/-- An element some update lands on ends at the common update value. -/
theorem scatter_set_of_hit (d : ScatterDims s si u) (f : α → α → α) (hf : ∀ a b, f a b = b) (x : s.Idx → α)
    (idx : IVec si w) (upd : u.Idx → α) (c : α) (hupd : ∀ j, upd j = c) (i : s.Idx)
    (h : ∃ j : u.Idx, d.resultIdx? j idx = some i) : Host.scatter d f x idx upd i = c := by
  obtain ⟨j, e⟩ := h
  unfold Host.scatter
  exact (foldl_set_apply d f hf idx upd c hupd i _ x).1
    ⟨u.rowMajor j, List.mem_finRange _, by rw [Equiv.symm_apply_apply]; exact e⟩

/-- An element no update lands on keeps the operand's value. -/
theorem scatter_set_of_miss (d : ScatterDims s si u) (f : α → α → α) (hf : ∀ a b, f a b = b) (x : s.Idx → α)
    (idx : IVec si w) (upd : u.Idx → α) (c : α) (hupd : ∀ j, upd j = c) (i : s.Idx)
    (h : ∀ j : u.Idx, d.resultIdx? j idx ≠ some i) : Host.scatter d f x idx upd i = x i := by
  unfold Host.scatter
  exact (foldl_set_apply d f hf idx upd c hupd i _ x).2 (fun n _ => h _)

end Idealize.ShloMosaic.ScatterSet
-- ==== Proof.Spec.lean ====
/-
  The multi-hot encoding, stated once as a function of the token array.

  `x` holds ten token ids per row (n, t). The result is 1 at (n, t, k) when one of the ten ids of that row is the
  word `k`, and 0 otherwise (`G`). The same function over the rows flattened to one axis (`G2`: row n·512 + t)
  is what a tiling over the flattened rows computes; reshaping its argument and its result back gives `G`,
  because a row-major reshape of [32, 512, ·] to [16384, ·] sends (n, t) to n·512 + t.
  Also here: the two float literals the programs spell (0.0 and 1.0) as extended reals, and the value of a
  one-bit condition widened to a word and converted to a float.
-/
import Idealize.ShloMosaic.PureOps.Ideal
import Idealize.ShloMosaic.Lib.ValueIdx
import Idealize.ShloMosaic.Lib.Pipeline.Value
import Idealize.ShloMosaic.Lib.KernelVsHost

noncomputable section

namespace Cert.MultiHot

open Idealize.ShloMosaic Idealize.ShloMosaic.ValueIdx

abbrev SX : Shape := ⟨3, ![32, 512, 10]⟩
abbrev SO : Shape := ⟨3, ![32, 512, 5000]⟩
abbrev SX2 : Shape := ⟨2, ![16384, 10]⟩
abbrev SO2 : Shape := ⟨2, ![16384, 5000]⟩

/-! ## The specification -/

/-- Row (n, t) of `x` names token `k`: one of its ten ids is the word `k`. -/
def Hit (x : SX.Idx → BitVec 32) (n : Fin 32) (t : Fin 512) (k : Fin 5000) : Prop :=
  ∃ f : Fin 10, x (ix3 n t f) = BitVec.ofNat 32 k.val

open Classical in
/-- The multi-hot encoding: 1 where the row names the token, 0 elsewhere. -/
def G (x : SX.Idx → BitVec 32) : SO.Idx → EReal := fun i => if Hit x (i 0) (i 1) (i 2) then 1 else 0

theorem G_of_hit {x : SX.Idx → BitVec 32} {i : SO.Idx} (h : Hit x (i 0) (i 1) (i 2)) : G x i = 1 := if_pos h
theorem G_of_miss {x : SX.Idx → BitVec 32} {i : SO.Idx} (h : ¬Hit x (i 0) (i 1) (i 2)) : G x i = 0 := if_neg h

/-- The same over flattened rows. -/
def Hit2 (x2 : SX2.Idx → BitVec 32) (r : Fin 16384) (k : Fin 5000) : Prop :=
  ∃ f : Fin 10, x2 (ix2 r f) = BitVec.ofNat 32 k.val

open Classical in
def G2 (x2 : SX2.Idx → BitVec 32) : SO2.Idx → EReal := fun j => if Hit2 x2 (j 0) (j 1) then 1 else 0

theorem G2_of_hit {x2 : SX2.Idx → BitVec 32} {j : SO2.Idx} (h : Hit2 x2 (j 0) (j 1)) : G2 x2 j = 1 := if_pos h
theorem G2_of_miss {x2 : SX2.Idx → BitVec 32} {j : SO2.Idx} (h : ¬Hit2 x2 (j 0) (j 1)) : G2 x2 j = 0 := if_neg h

/-! ## Flattening the rows and unflattening the result is the identity on the specification -/

/-- The flattened token array at row n·512 + t is the token array at (n, t). -/
theorem flat_apply (x : SX.Idx → BitVec 32) (h1 : SX.ShapeCasts SX2) (n : Fin 32) (t : Fin 512) (f : Fin 10)
    (r : Fin 16384) (hr : r.val = n.val * 512 + t.val) :
    shapeCast SX2 x h1 (ix2 r f) = x (ix3 n t f) := by
  refine shapeCast_apply x h1 (ix2 r f) (ix3 n t f) ?_
  rw [Shape.rowMajor_val_two, Shape.rowMajor_val_three]
  show (n.val * 512 + t.val) * 10 + f.val = r.val * 10 + f.val
  rw [hr]

theorem unflatten_G2 (x : SX.Idx → BitVec 32) (h1 : SX.ShapeCasts SX2) (h2 : SO2.ShapeCasts SO) :
    shapeCast SO (G2 (shapeCast SX2 x h1)) h2 = G x := by
  funext i
  have hn : (i 0).val < 32 := (i 0).isLt
  have ht : (i 1).val < 512 := (i 1).isLt
  let r : Fin 16384 := ⟨(i 0).val * 512 + (i 1).val, by omega⟩
  have e : shapeCast SO (G2 (shapeCast SX2 x h1)) h2 i = G2 (shapeCast SX2 x h1) (ix2 r (i 2)) := by
    refine shapeCast_apply _ h2 i (ix2 r (i 2)) ?_
    rw [Shape.rowMajor_val_two, Shape.rowMajor_val_three]
    rfl
  rw [e]
  have hiff : Hit2 (shapeCast SX2 x h1) r (i 2) ↔ Hit x (i 0) (i 1) (i 2) := by
    constructor
    · rintro ⟨f, hf⟩; exact ⟨f, by rw [← flat_apply x h1 (i 0) (i 1) f r rfl]; exact hf⟩
    · rintro ⟨f, hf⟩; exact ⟨f, by rw [flat_apply x h1 (i 0) (i 1) f r rfl]; exact hf⟩
  by_cases h : Hit x (i 0) (i 1) (i 2)
  · rw [G_of_hit h]; exact G2_of_hit (hiff.2 h)
  · rw [G_of_miss h]; exact G2_of_miss (fun h' => h (hiff.1 h'))

/-! ## Constants and the condition as a float -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- A set condition bit, widened to a word and converted signed, is 1. -/
theorem bit_float_one : FloatOps.sitofp (F := Ideal) .f32 ((1#1 : BitVec 1).setWidth 32) = (1 : EReal) := by
  show (((((1#1 : BitVec 1).setWidth 32).toInt : ℤ) : ℝ) : EReal) = 1
  rw [toInt_setWidth_bit]; simp

/-- A clear one is 0. -/
theorem bit_float_zero : FloatOps.sitofp (F := Ideal) .f32 ((0#1 : BitVec 1).setWidth 32) = (0 : EReal) := by
  show (((((0#1 : BitVec 1).setWidth 32).toInt : ℤ) : ℝ) : EReal) = 0
  rw [toInt_setWidth_bit]; simp

end Cert.MultiHot

end
-- ==== Proof.RefValue.lean ====
/-
  The reference computes the multi-hot encoding `G` of a non-negative token array.

  The reference builds, for every (n, t, f), the index vector (n, t, x[n, t, f]) — each component first wrapped
  numpy-style (a negative index has the axis' extent added; n, t and a non-negative token are unchanged) — and
  scatters the constant 1.0 into an array of zeros at those index vectors, dropping vectors outside the array.
  So update (n', t', f) lands on (n, t, k) exactly when n' = n, t' = t and the token x[n', t', f], read as a signed
  integer, is k. The element (n, t, k) is therefore 1.0 if some f has x[n, t, f] = k and 0.0 otherwise: `G`.
-/
import proofs.«411672_j26233660244449_1_alg».proof.Proof.Gen.ReferenceIdeal.Read
import proofs.«411672_j26233660244449_1_alg».proof.Proof.LibScatterSet
import proofs.«411672_j26233660244449_1_alg».proof.Proof.Spec
import Idealize.ShloMosaic.Lib.Affine
import Idealize.ShloMosaic.Lib.StableHlo.Predicate

noncomputable section

namespace Cert.MultiHot.Ref

open Cert.ReferenceIdeal Cert.ReferenceIdeal.Gen Cert.ReferenceIdeal.Read
open Idealize.ShloMosaic Idealize.ShloMosaic.ValueIdx Idealize.ShloMosaic.StableHlo.Predicate

variable {F : FTy → Type} [FloatOps F]

/-- The scatter's dimension numbers: the three operand axes all inserted, index vectors along axis 3. -/
abbrev D := scatter_S32x512x5000_S32x512x10x3_S32x512x10_n_012_012_3

/-! ## Where an update lands -/

/-- No window: every operand axis is an inserted one. -/
theorem window_eq (j : S32x512x10.Idx) (a : Fin 3) : D.window j a = 0 := by
  unfold ScatterDims.window
  rw [dif_neg]
  fin_cases a <;> decide

/-- The start on axis `a` is component `a` of the update's index vector, read signed. -/
theorem start_eq (j : S32x512x10.Idx) (idx : IVec S32x512x10x3 32) (a : Fin 3) :
    D.start j idx a = (idx (ix4 (n0 := 32) (n1 := 512) (n2 := 10) (n3 := 3) (j 0) (j 1) (j 2) a)).toInt := by
  unfold ScatterDims.start
  rw [dif_pos (by fin_cases a <;> decide)]
  congr 2
  funext b
  fin_cases a <;> fin_cases b <;> rfl

/-! ## The index vectors -/

/-- The numpy-style wrap leaves a non-negative index alone. -/
theorem wrap_of_nonneg (a m : BitVec 32) (ha : 0 ≤ a.toInt) :
    Scalar.select (IntOp.cmpi .slt a 0#32) (IntOp.addi a m) a = a := by
  have h : ¬ IntOp.cmpi .slt a 0#32 = 1#1 := by
    rw [IntOp.cmpi_slt]
    simpa using ha
  rw [eq_zero_of_ne_one h, select_zero]

theorem toInt_ofNat_fin {N : Nat} (hN : N ≤ 5000) (n : Fin N) : (BitVec.ofNat 32 n.val).toInt = (n.val : Int) :=
  toInt_ofNat_small n.val (by have := n.isLt; omega)

/-- The three [32, 512, 10, 1] pieces the index vectors are concatenated from, along the last axis. -/
abbrev pieces (x : IVec S32x512x10 32) : List ((s : Shape) × (s.Idx → BitVec 32)) :=
  [⟨S32x512x10x1, val_main_v22 (F := F)⟩, ⟨S32x512x10x1, val_main_v23 (F := F)⟩, ⟨S32x512x10x1, val_main_v24 (F := F) x⟩]

/-- Component 0 of the index vector at (n, t, f) is n. -/
theorem idx_n (x : IVec S32x512x10 32) (n : Fin 32) (t : Fin 512) (f : Fin 10) :
    val_main_v25 (F := F) x (ix4 n t f (0 : Fin 3)) = BitVec.ofNat 32 n.val := by
  unfold val_main_v25
  refine (concatenate_apply_piece (t := S32x512x10x3) (3 : Fin 4) (pieces (F := F) x)
    concatenates_S32x512x10x1_S32x512x10x1_S32x512x10x1_S32x512x10x3_d3 (ix4 n t f (0 : Fin 3)) 0 (by show (0 : Nat) < 3; decide) S32x512x10x1
    (val_main_v22 (F := F)) rfl rfl 0 rfl (ix4 n t f (0 : Fin 1)) (fun b hb => ?_) rfl).trans ?_
  · fin_cases b <;> first | rfl | exact absurd rfl hb
  · rw [val_main_v22_apply, val_main_v20_apply, val_main_v9_apply, val_main_v6_apply, val_main_v8_apply, val_main_v1_apply,
      val_main_v5_apply, val_main_v7_apply, val_main_v0_apply, val_main_c_apply, val_main_c_0_apply]
    exact wrap_of_nonneg _ _ (by rw [show (BitVec.ofNat 32 _).toInt = _ from toInt_ofNat_fin (by decide) n]; omega)

/-- Component 1 is t. -/
theorem idx_t (x : IVec S32x512x10 32) (n : Fin 32) (t : Fin 512) (f : Fin 10) :
    val_main_v25 (F := F) x (ix4 n t f (1 : Fin 3)) = BitVec.ofNat 32 t.val := by
  unfold val_main_v25
  refine (concatenate_apply_piece (t := S32x512x10x3) (3 : Fin 4) (pieces (F := F) x)
    concatenates_S32x512x10x1_S32x512x10x1_S32x512x10x1_S32x512x10x3_d3 (ix4 n t f (1 : Fin 3)) 1 (by show (1 : Nat) < 3; decide) S32x512x10x1
    (val_main_v23 (F := F)) rfl rfl 1 rfl (ix4 n t f (0 : Fin 1)) (fun b hb => ?_) rfl).trans ?_
  · fin_cases b <;> first | rfl | exact absurd rfl hb
  · rw [val_main_v23_apply, val_main_v21_apply, val_main_v14_apply, val_main_v11_apply, val_main_v13_apply, val_main_v3_apply,
      val_main_v10_apply, val_main_v12_apply, val_main_v2_apply, val_main_c_1_apply, val_main_c_2_apply]
    exact wrap_of_nonneg _ _ (by rw [show (BitVec.ofNat 32 _).toInt = _ from toInt_ofNat_fin (by decide) t]; omega)

/-- Component 2 is the token, when it is non-negative. -/
theorem idx_x (x : IVec S32x512x10 32) (hx : ∀ j, 0 ≤ (x j).toInt) (n : Fin 32) (t : Fin 512) (f : Fin 10) :
    val_main_v25 (F := F) x (ix4 n t f (2 : Fin 3)) = x (ix3 n t f) := by
  unfold val_main_v25
  refine (concatenate_apply_piece (t := S32x512x10x3) (3 : Fin 4) (pieces (F := F) x)
    concatenates_S32x512x10x1_S32x512x10x1_S32x512x10x1_S32x512x10x3_d3 (ix4 n t f (2 : Fin 3)) 2 (by show (2 : Nat) < 3; decide) S32x512x10x1
    (val_main_v24 (F := F) x) rfl rfl 2 rfl (ix4 n t f (0 : Fin 1)) (fun b hb => ?_) rfl).trans ?_
  · fin_cases b <;> first | rfl | exact absurd rfl hb
  · rw [val_main_v24_apply, val_main_v19_apply, val_main_v16_apply, val_main_v18_apply, val_main_v15_apply, val_main_v17_apply,
      val_main_c_3_apply, val_main_c_4_apply]
    have hi : idx_main_v24 (ix4 n t f (0 : Fin 1)) = ix3 n t f := by funext a; fin_cases a <;> rfl
    exact (wrap_of_nonneg _ _ (hx _)).trans (congrArg x hi)

/-- Update (n', t', f) lands on (n, t, k) exactly when n' = n, t' = t and the token is k. -/
theorem lands (x : IVec S32x512x10 32) (hx : ∀ j, 0 ≤ (x j).toInt) (j : S32x512x10.Idx) (i : S32x512x5000.Idx) :
    D.resultIdx? j (val_main_v25 (F := F) x) = some i
      ↔ (j 0).val = (i 0).val ∧ (j 1).val = (i 1).val ∧ (x j).toInt = ((i 2).val : Int) := by
  rw [ScatterSet.resultIdx?_eq_some_iff]
  have s0 : D.start j (val_main_v25 (F := F) x) 0 = ((j 0).val : Int) :=
    (start_eq j _ 0).trans ((congrArg BitVec.toInt (idx_n x (j 0) (j 1) (j 2))).trans (toInt_ofNat_fin (by decide) (j 0)))
  have s1 : D.start j (val_main_v25 (F := F) x) 1 = ((j 1).val : Int) :=
    (start_eq j _ 1).trans ((congrArg BitVec.toInt (idx_t x (j 0) (j 1) (j 2))).trans (toInt_ofNat_fin (by decide) (j 1)))
  have s2 : D.start j (val_main_v25 (F := F) x) 2 = (x j).toInt :=
    (start_eq j _ 2).trans (congrArg BitVec.toInt ((idx_x x hx (j 0) (j 1) (j 2)).trans (congrArg x (eq_ix3 j).symm)))
  have e0 : D.start j (val_main_v25 (F := F) x) 0 + (D.window j 0 : Int) = ((j 0).val : Int) := by
    rw [s0, window_eq]; simp
  have e1 : D.start j (val_main_v25 (F := F) x) 1 + (D.window j 1 : Int) = ((j 1).val : Int) := by
    rw [s1, window_eq]; simp
  have e2 : D.start j (val_main_v25 (F := F) x) 2 + (D.window j 2 : Int) = (x j).toInt := by
    rw [s2, window_eq]; simp
  constructor
  · intro h
    have h0 := h 0; have h1 := h 1; have h2 := h 2
    rw [e0] at h0; rw [e1] at h1; rw [e2] at h2
    exact ⟨by exact_mod_cast h0, by exact_mod_cast h1, h2⟩
  · rintro ⟨h0, h1, h2⟩ a
    fin_cases a
    · show D.start j (val_main_v25 (F := F) x) 0 + (D.window j 0 : Int) = _; rw [e0]; exact_mod_cast h0
    · show D.start j (val_main_v25 (F := F) x) 1 + (D.window j 1 : Int) = _; rw [e1]; exact_mod_cast h1
    · show D.start j (val_main_v25 (F := F) x) 2 + (D.window j 2 : Int) = _; rw [e2]; exact h2

/-! ## The scatter is the specification -/

theorem ref_eq (x : IVec S32x512x10 32) (hx : ∀ j, 0 ≤ (x j).toInt) : val_main_v27 (F := Ideal) x = G x := by
  funext i
  have hupd : ∀ j, val_main_v26 (F := Ideal) j = (1 : EReal) := fun j => by
    rw [val_main_v26_apply, val_main_cst_5_apply]; exact ofBits_one
  have hx0 : val_main_v4 (F := Ideal) i = (0 : EReal) := by
    rw [val_main_v4_apply, val_main_cst_apply]; exact ofBits_zero
  unfold val_main_v27
  by_cases h : Hit x (i 0) (i 1) (i 2)
  · rw [G_of_hit h]
    obtain ⟨f, hf⟩ := h
    refine ScatterSet.scatter_set_of_hit D _ (fun _ _ => rfl) _ _ _ 1 hupd i ⟨ix3 (i 0) (i 1) f, ?_⟩
    rw [lands x hx]
    exact ⟨rfl, rfl, by rw [hf]; exact toInt_ofNat_fin (le_refl _) (i 2)⟩
  · rw [G_of_miss h, ← hx0]
    refine ScatterSet.scatter_set_of_miss D _ (fun _ _ => rfl) _ _ _ 1 hupd i (fun j e => h ?_)
    rw [lands x hx] at e
    obtain ⟨e0, e1, e2⟩ := e
    refine ⟨j 2, ?_⟩
    have hj : ix3 (i 0) (i 1) (j 2) = j := by
      funext b
      fin_cases b
      · exact Fin.ext e0.symm
      · exact Fin.ext e1.symm
      · rfl
    refine (congrArg x hj).trans (BitVec.eq_of_toInt_eq ?_)
    rw [e2, toInt_ofNat_fin (le_refl _) (i 2)]

end Cert.MultiHot.Ref

end
-- ==== Proof.KernelPayload.lean ====
/-
  What the kernel body stores, at one element of a block.

  The body compares a lane iota (the token number q of each lane) with each of the ten id columns of its
  [512, 10] block, broadcast along the lanes, ORs the ten conditions, widens the bit to a word and converts it to
  a float. So element (p, q) of the stored [512, 5000] block is 1 when one of the ten ids of row p is the word q,
  and 0 otherwise.
-/
import proofs.«411672_j26233660244449_1_alg».proof.Proof.Gen.KernelIdeal.Frame
import proofs.«411672_j26233660244449_1_alg».proof.Proof.Spec
import Idealize.ShloMosaic.Lib.Affine
import Idealize.ShloMosaic.Lib.Pipeline.Value
import Idealize.ShloMosaic.Lib.ValueIdx

noncomputable section

namespace Cert.MultiHot.Kern

open Cert.KernelIdeal Cert.KernelIdeal.Gen
open Idealize.ShloMosaic Idealize.ShloMosaic.ValueIdx

/-- A property of one of ten columns, as a ten-way disjunction. -/
theorem exists_fin10 (P : Fin 10 → Prop) :
    (∃ f, P f) ↔ P 0 ∨ P 1 ∨ P 2 ∨ P 3 ∨ P 4 ∨ P 5 ∨ P 6 ∨ P 7 ∨ P 8 ∨ P 9 := by
  constructor
  · rintro ⟨f, hf⟩
    fin_cases f
    · exact Or.inl hf
    · exact Or.inr (Or.inl hf)
    · exact Or.inr (Or.inr (Or.inl hf))
    · exact Or.inr (Or.inr (Or.inr (Or.inl hf)))
    · exact Or.inr (Or.inr (Or.inr (Or.inr (Or.inl hf))))
    · exact Or.inr (Or.inr (Or.inr (Or.inr (Or.inr (Or.inl hf)))))
    · exact Or.inr (Or.inr (Or.inr (Or.inr (Or.inr (Or.inr (Or.inl hf))))))
    · exact Or.inr (Or.inr (Or.inr (Or.inr (Or.inr (Or.inr (Or.inr (Or.inl hf)))))))
    · exact Or.inr (Or.inr (Or.inr (Or.inr (Or.inr (Or.inr (Or.inr (Or.inr (Or.inl hf))))))))
    · exact Or.inr (Or.inr (Or.inr (Or.inr (Or.inr (Or.inr (Or.inr (Or.inr (Or.inr hf))))))))
  · rintro (h | h | h | h | h | h | h | h | h | h)
    exacts [⟨0, h⟩, ⟨1, h⟩, ⟨2, h⟩, ⟨3, h⟩, ⟨4, h⟩, ⟨5, h⟩, ⟨6, h⟩, ⟨7, h⟩, ⟨8, h⟩, ⟨9, h⟩]

/-- Column f of the block, loaded as a [512, 1] vector and broadcast along the lanes, read at (p, q): the id
    (p, f). -/
theorem col_apply (x0 : Vec Ideal S512x10 .i32) (off : Fin 2 → Nat)
    (inb : ∀ a, off a + S512x1.size a ≤ S512x10.size a) (f : Fin 10) (h0 : off 0 = 0) (h1 : off 1 = f.val)
    (p : Fin 512) (q : Fin 5000) :
    broadcastTo S512x5000 (shapeCast S512x1 (View.ld x0 (Rect.unit (s := S512x10) off S512x1.size inb))
      shapeCasts_S512x1_S512x1) broadcasts_S512x1_S512x5000 (ix2 p q) = x0 (ix2 p f) := by
  refine (broadcastTo_apply _ _ (ix2 p q) (ix2 p (0 : Fin 1)) (fun a => ?_)).trans ?_
  · match a with
    | ⟨0, _⟩ => show p.val = if (512 : Nat) = 1 then 0 else p.val; rw [if_neg (by decide)]
    | ⟨1, _⟩ => show 0 = if (1 : Nat) = 1 then 0 else q.val; rw [if_pos rfl]
  · refine (shapeCast_apply _ shapeCasts_S512x1_S512x1 (ix2 p (0 : Fin 1)) (ix2 p (0 : Fin 1)) rfl).trans ?_
    show x0 ((Rect.unit (s := S512x10) off S512x1.size inb).idx (ix2 p (0 : Fin 1))) = x0 (ix2 p f)
    refine congrArg x0 (funext fun a => Fin.ext ?_)
    match a with
    | ⟨0, _⟩ => show off 0 + 1 * p.val = p.val; omega
    | ⟨1, _⟩ => show off 1 + 1 * 0 = f.val; omega

/-- The stored vector, as a function of the input block. -/
abbrev pay (x0 : Vec Ideal S512x10 .i32) : FVec Ideal S512x5000 .f32 :=
  k0_pay1 (F := Ideal) (iota .tc S512x5000 32 [1] iota_S512x5000_d1_w32)
    (k0_pay2 (View.ld x0 r0_0) (View.ld x0 r0_1) (View.ld x0 r0_2) (View.ld x0 r0_3) (View.ld x0 r0_4) (View.ld x0 r0_5)
      (View.ld x0 r0_6) (View.ld x0 r0_7)) (View.ld x0 r0_8) (View.ld x0 r0_9)

/-- The condition at (p, q): the OR, from a clear bit, of "lane q's number is id (p, f)" over the ten columns, in
    the body's order. -/
def bit (x0 : Vec Ideal S512x10 .i32) (p : Fin 512) (q : Fin 5000) : BitVec 1 :=
  IntOp.ori (IntOp.ori (IntOp.ori (IntOp.ori (IntOp.ori (IntOp.ori (IntOp.ori (IntOp.ori (IntOp.ori (IntOp.ori 0#1
    (IntOp.cmpi .eq (BitVec.ofNat 32 q.val) (x0 (ix2 p 0))))
    (IntOp.cmpi .eq (BitVec.ofNat 32 q.val) (x0 (ix2 p 1))))
    (IntOp.cmpi .eq (BitVec.ofNat 32 q.val) (x0 (ix2 p 2))))
    (IntOp.cmpi .eq (BitVec.ofNat 32 q.val) (x0 (ix2 p 3))))
    (IntOp.cmpi .eq (BitVec.ofNat 32 q.val) (x0 (ix2 p 4))))
    (IntOp.cmpi .eq (BitVec.ofNat 32 q.val) (x0 (ix2 p 5))))
    (IntOp.cmpi .eq (BitVec.ofNat 32 q.val) (x0 (ix2 p 6))))
    (IntOp.cmpi .eq (BitVec.ofNat 32 q.val) (x0 (ix2 p 7))))
    (IntOp.cmpi .eq (BitVec.ofNat 32 q.val) (x0 (ix2 p 8))))
    (IntOp.cmpi .eq (BitVec.ofNat 32 q.val) (x0 (ix2 p 9)))

theorem ori_apply {s : Shape} {w : Nat} (a b : IVec s w) (i : s.Idx) : ori a b i = IntOp.ori (a i) (b i) := rfl
theorem cmpi_apply {s : Shape} {w : Nat} (pr : CmpIPredicate) (a b : IVec s w) (i : s.Idx) :
    cmpi pr a b i = IntOp.cmpi pr (a i) (b i) := rfl

/-- The stored element is the condition, widened and converted. -/
theorem pay_apply (x0 : Vec Ideal S512x10 .i32) (p : Fin 512) (q : Fin 5000) :
    pay x0 (ix2 p q) = FloatOps.sitofp (F := Ideal) .f32 ((bit x0 p q).setWidth 32) := by
  have c0 := col_apply x0 _ inb_S512x10_S512x1_0_0 0 rfl rfl p q
  have c1 := col_apply x0 _ inb_S512x10_S512x1_0_1 1 rfl rfl p q
  have c2 := col_apply x0 _ inb_S512x10_S512x1_0_2 2 rfl rfl p q
  have c3 := col_apply x0 _ inb_S512x10_S512x1_0_3 3 rfl rfl p q
  have c4 := col_apply x0 _ inb_S512x10_S512x1_0_4 4 rfl rfl p q
  have c5 := col_apply x0 _ inb_S512x10_S512x1_0_5 5 rfl rfl p q
  have c6 := col_apply x0 _ inb_S512x10_S512x1_0_6 6 rfl rfl p q
  have c7 := col_apply x0 _ inb_S512x10_S512x1_0_7 7 rfl rfl p q
  have c8 := col_apply x0 _ inb_S512x10_S512x1_0_8 8 rfl rfl p q
  have c9 := col_apply x0 _ inb_S512x10_S512x1_0_9 9 rfl rfl p q
  have hi : iota .tc S512x5000 32 [1] iota_S512x5000_d1_w32 (ix2 p q) = BitVec.ofNat 32 q.val :=
    iota_single_apply .tc S512x5000 32 1 iota_S512x5000_d1_w32 (ix2 p q)
  unfold pay k0_pay1 k0_pay2 bit
  simp only [sitofp_apply, extui_apply, ori_apply, cmpi_apply, broadcast_apply, hi, c0, c1, c2, c3, c4, c5, c6, c7, c8, c9]

/-- The condition is set exactly when one of the row's ten ids is the word q. -/
theorem bit_iff (x0 : Vec Ideal S512x10 .i32) (p : Fin 512) (q : Fin 5000) :
    bit x0 p q = 1#1 ↔ ∃ f : Fin 10, x0 (ix2 p f) = BitVec.ofNat 32 q.val := by
  rw [show (∃ f : Fin 10, x0 (ix2 p f) = BitVec.ofNat 32 q.val) ↔ ∃ f : Fin 10, BitVec.ofNat 32 q.val = x0 (ix2 p f) from
    exists_congr fun f => eq_comm, exists_fin10]
  unfold bit
  simp only [IntOp.ori_eq_one, IntOp.cmpi_eq, or_assoc, eq_false (by decide : ¬ (0#1 : BitVec 1) = 1#1), false_or]

theorem pay_of_hit (x0 : Vec Ideal S512x10 .i32) (p : Fin 512) (q : Fin 5000)
    (h : ∃ f : Fin 10, x0 (ix2 p f) = BitVec.ofNat 32 q.val) : pay x0 (ix2 p q) = (1 : EReal) := by
  rw [pay_apply, (bit_iff x0 p q).2 h]; exact bit_float_one

theorem pay_of_miss (x0 : Vec Ideal S512x10 .i32) (p : Fin 512) (q : Fin 5000)
    (h : ¬∃ f : Fin 10, x0 (ix2 p f) = BitVec.ofNat 32 q.val) : pay x0 (ix2 p q) = (0 : EReal) := by
  rw [pay_apply, eq_zero_of_ne_one (fun e => h ((bit_iff x0 p q).1 e))]; exact bit_float_zero

end Cert.MultiHot.Kern

end
-- ==== Proof.KernelValue.lean ====
/-
  The kernel's result is the multi-hot encoding `G` of the token array.

  The program flattens the token array's rows ([32, 512, 10] to [16384, 10]), runs the body over 32 blocks of 512
  rows — point t reads rows t·512 … t·512 + 511 and writes the same rows of the [16384, 5000] output, all 5000
  lanes — and unflattens the output to [32, 512, 5000]. What point t writes back is block t of ONE function of
  the flattened tokens (`G2`: 1 where the row names the lane's token); the 32 blocks tile the output, so the
  output array is `G2` of the flattened tokens, and its unflattening is `G`.
-/
import proofs.«411672_j26233660244449_1_alg».proof.Proof.KernelPayload
import Idealize.ShloMosaic.Lib.StableHlo.Run

set_option maxRecDepth 16384

noncomputable section

namespace Cert.MultiHot.Kern

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## What a point writes back -/

theorem hz : (![0, 0] : Fin 2 → Nat) = fun _ => 0 := funext fun a => by fin_cases a <;> rfl

/-- The index maps over the grid: point t's blocks are block row t of both arrays, the only block column. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The flattened token array, as the region finds it. -/
abbrev xflat (c : Dev nD) : SX2.Idx → BitVec 32 := V m c main_v0

/-- Row p, column f of point t's input block is row t·512 + p of the flattened tokens. -/
theorem iblk_apply (c : Dev nD) (t : Fin cfg0.N) (p : Fin 512) (f : Fin 10) (r : Fin 16384)
    (hr : r.val = t.val * 512 + p.val) : iblk m c 0 t (ix2 p f) = xflat m c (ix2 r f) := by
  obtain ⟨e0, e1, -, -⟩ := idx_facts t
  show V m c main_v0 (((cfg0.win 0).blk t).view.emb (ix2 p f)) = V m c main_v0 (ix2 r f)
  refine congrArg _ (funext fun a => Fin.ext ?_)
  match a with
  | ⟨0, _⟩ => show win0_0.index t (0 : Fin 2) * 512 + 1 * p.val = r.val; omega
  | ⟨1, _⟩ => show win0_0.index t (1 : Fin 2) * 10 + 1 * f.val = f.val; omega

/-- WHAT POINT t WRITES BACK is block t of `G2` of the flattened tokens. -/
theorem flushed_eq (c : Dev nD) (t : Fin cfg0.N) :
    (dats m 0 c).flushed 1 t = ((cfg0.win 1).blk t).view.read (Elt Ideal) (G2 (xflat m c)) := by
  show (cfg0.win 1).cut (grid0.coords t) ((dats m 0 c).after 1 t) = _
  rw [after0_1]
  unfold out0_1
  rw [View.canon_unit_zero hz]
  obtain ⟨-, -, e2, e3⟩ := idx_facts t
  have ht : t.val < 32 := lt_of_lt_of_eq t.isLt N_0
  funext y
  obtain ⟨p, q, rfl⟩ : ∃ (p : Fin 512) (q : Fin 5000), y = ix2 p q := ⟨y 0, y 1, eq_ix2 y⟩
  have hp := p.isLt
  let r : Fin 16384 := ⟨t.val * 512 + p.val, by omega⟩
  have hemb : ((cfg0.win 1).blk t).view.emb (ix2 p q) = (ix2 r q : SO2.Idx) := by
    funext a; apply Fin.ext
    match a with
    | ⟨0, _⟩ => show win0_1.index t (0 : Fin 2) * 512 + 1 * p.val = t.val * 512 + p.val; omega
    | ⟨1, _⟩ => show win0_1.index t (1 : Fin 2) * 5000 + 1 * q.val = q.val; omega
  show pay (iblk m c 0 t) (ix2 p q) = G2 (xflat m c) (((cfg0.win 1).blk t).view.emb (ix2 p q))
  rw [hemb]
  have hiff : (∃ f : Fin 10, iblk m c 0 t (ix2 p f) = BitVec.ofNat 32 q.val) ↔ Hit2 (xflat m c) r q :=
    exists_congr fun f => by rw [iblk_apply m c t p f r rfl]
  by_cases h : Hit2 (xflat m c) r q
  · exact (pay_of_hit (iblk m c 0 t) p q (hiff.2 h)).trans (G2_of_hit (j := ix2 r q) h).symm
  · exact (pay_of_miss (iblk m c 0 t) p q (fun h' => h (hiff.1 h'))).trans (G2_of_miss (j := ix2 r q) h).symm

/-! ## The output array after the run -/

theorem mem_blk (t : Fin cfg0.N) (i : SO2.Idx) :
    i ∈ ((cfg0.win 1).blk t).view.set ↔ ∀ a : Fin 2, win0_1.index t a * S512x5000.size a ≤ (i a).val
      ∧ (i a).val < win0_1.index t a * S512x5000.size a + S512x5000.size a := by
  show i ∈ ((View.whole main_v1).slice (win0_1.rect t)).set ↔ _
  rw [View.set_slice_whole, Rect.mem_set_unit]
  exact Iff.rfl

/-- Row r of the output is in block r / 512. -/
theorem cover (i : SO2.Idx) :
    ∃ t : Fin cfg0.N, (cfg0.win 1).flush t = true ∧ i ∈ ((cfg0.win 1).blk t).view.set := by
  have hi0 : (i 0).val < 16384 := (i 0).isLt
  have hi1 : (i 1).val < 5000 := (i 1).isLt
  let t : Fin cfg0.N := ⟨(i 0).val / 512, by show _ < grid0.N; rw [N_0]; omega⟩
  obtain ⟨-, -, e2, e3⟩ := idx_facts t
  have et : t.val = (i 0).val / 512 := rfl
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 5000 ≤ (i 1).val ∧ (i 1).val < win0_1.index t (1 : Fin 2) * 5000 + 5000
    omega

/-- THE OUTPUT ARRAY after the run is `G2` of the flattened tokens. -/
theorem final (c : Dev nD) : (dats m 0 c).arrAt 1 cfg0.N = G2 (xflat m c) :=
  (dats m 0 c).arrAt_eq_of_cover 1 (G2 (xflat m c)) (fun t _ => flushed_eq m c t) cover

/-! ## The host operations around the region -/

/-- The region finds the token array flattened. -/
theorem xflat_eq (c : Dev nD) :
    xflat m c = shapeCast S16384x10 (m ((c : Thread nD τ).loc main_arg0)) shapeCasts_S32x512x10_S16384x10 := by
  show StableHlo.after hostOps0 (fun b => m (c, b)) (Proc.devRef .tc main_v0) = _
  after_results
  rfl

/-- The program's result is the output array unflattened. -/
theorem result_eq (c : Dev nD) :
    Pipeline.afterTail₀ cfgs (dats m) 0 (V0 m) [hostOps1] c main_v2
      = shapeCast S32x512x5000 ((dats m 0 c).arrAt 1 cfg0.N) shapeCasts_S16384x5000_S32x512x5000 := by
  unfold Pipeline.afterTail₀
  show StableHlo.after hostOps1 _ (Proc.devRef .tc main_v2) = _
  after_results
  have hA := Pipeline.withArrays_arr spec0 launch0.win.arr_inj c (V0 m c) (fun w => (dats m 0 c).arrAt w cfg0.N) 1
  exact congrArg (fun A => shapeCast S32x512x5000 A shapeCasts_S16384x5000_S32x512x5000) hA

/-! ## The run -/

/-- Every weakly fair execution of the program terminates with its result at `G` of the token array and the
    token array unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun r h c => ⟨
      ((h c).2 main_v2 (Pipeline.mem_restRefs_of main_v2 (by decide) (by decide))).trans
        ((result_eq m c).trans (by rw [final, xflat_eq]; exact unflatten_G2 _ _ _)),
      ((h c).2 main_arg0 (Pipeline.mem_restRefs_of main_arg0 (by decide) (by decide))).trans (W_main_arg0 m (dats m) c)⟩)
    (run_main m ρ)

end Cert.MultiHot.Kern

end
-- ==== Proof.lean ====
/-
  Multi-hot encoding of ten token ids per row, [32, 512, 10] int32 to [32, 512, 5000] f32: a kernel tiled over
  the flattened rows against a scatter of ones, equal over the extended reals when every token id is non-negative.

  Both programs compute ONE function `G` of the token array x (Proof/Spec.lean): G x (n, t, k) is 1 if one of the ten
  ids x[n, t, ·] is the word k, and 0 otherwise.
  * The kernel (Proof/KernelPayload.lean, Proof/KernelValue.lean) compares a lane iota with each id column, ORs the
    ten conditions and converts the bit to a float; its 32 blocks of 512 flattened rows tile the output, and the
    reshapes around the region flatten the rows and unflatten the result. This holds for every token array.
  * The reference (Proof/RefValue.lean over Proof/LibScatterSet.lean) scatters the constant 1.0 into zeros at the
    index vectors (n, t, x[n, t, f]), after wrapping negative indices numpy-style and dropping vectors outside the
    array. With all updates equal the order of the scatter does not matter: an element is 1 exactly when some
    update lands on it. For a non-negative token the wrap is the identity, so update (n, t, f) lands on
    (n, t, x[n, t, f]) when that id is below 5000 and nowhere otherwise — the kernel's value.
  * A NEGATIVE id in [-5000, -1] is where the two differ (the reference wraps it to id + 5000, the kernel matches
    nothing): the precondition `every id is non-negative` (Proof/PreNonneg.lean reads it) excludes exactly that.
    Ids of 5000 and above need no exclusion: both programs ignore them.
  The frames of the two kernel programs are the generated ones; the reference's frame is its generated run with the
  result dropped; no rewrite was applied in idealizing the kernel, so there is nothing to preserve.
-/
import proofs.«411672_j26233660244449_1_alg».proof.Defs
import proofs.«411672_j26233660244449_1_alg».proof.Proof.Gen.Kernel
import proofs.«411672_j26233660244449_1_alg».proof.Proof.Gen.Kernel.Skeleton
import proofs.«411672_j26233660244449_1_alg».proof.Proof.Gen.Kernel.Launch
import proofs.«411672_j26233660244449_1_alg».proof.Proof.Gen.Kernel.Points
import proofs.«411672_j26233660244449_1_alg».proof.Proof.Gen.Kernel.Frame
import proofs.«411672_j26233660244449_1_alg».proof.Proof.Gen.KernelIdeal
import proofs.«411672_j26233660244449_1_alg».proof.Proof.Gen.KernelIdeal.Skeleton
import proofs.«411672_j26233660244449_1_alg».proof.Proof.Gen.KernelIdeal.Launch
import proofs.«411672_j26233660244449_1_alg».proof.Proof.Gen.KernelIdeal.Points
import proofs.«411672_j26233660244449_1_alg».proof.Proof.Gen.KernelIdeal.Frame
import proofs.«411672_j26233660244449_1_alg».proof.Proof.Gen.ReferenceIdeal
import proofs.«411672_j26233660244449_1_alg».proof.Proof.Gen.Pre_any_inputs
import proofs.«411672_j26233660244449_1_alg».proof.Proof.Gen.ReferenceIdeal.Run
import proofs.«411672_j26233660244449_1_alg».proof.Proof.Gen.ReferenceIdeal.Read
import proofs.«411672_j26233660244449_1_alg».proof.Proof.PreNonneg
import proofs.«411672_j26233660244449_1_alg».proof.Proof.RefValue
import proofs.«411672_j26233660244449_1_alg».proof.Proof.KernelValue
import Idealize.ShloMosaic.Adequacy
import Idealize.ShloMosaic.Init

noncomputable section

namespace Cert.Proof

open Idealize.ShloMosaic Idealize.SL.Sem Cert.MultiHot

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the token array, with every id non-negative, both programs end at `G` of it. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0)),
    Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, hagree c]
  exact Ref.ref_eq _ (fun j => nonneg_of_pre _ (hpre c) j)

theorem claim : Cert.Claim := ⟨Cert.Kernel.Gen.facts, Cert.KernelIdeal.Gen.facts, Cert.ReferenceIdeal.Gen.facts, Cert.Pre_any_inputs.Gen.facts,
  frame_kernel, frame_kernelIdeal, frame_referenceIdeal, trivial, algebraic⟩

end Cert.Proof

end
